-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x800000 32) (main_arg2 : FVec F S128x128 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S1x128 : Shape := ⟨2, ![1, 128]⟩
abbrev S50000x1 : Shape := ⟨2, ![50000, 1]⟩
abbrev S5000x128 : Shape := ⟨2, ![5000, 128]⟩
abbrev S5000x1 : Shape := ⟨2, ![5000, 1]⟩

abbrev nBuf : Space → Nat
  | .hbm => 43
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S_, .i32⟩
  | .hbm, ⟨22, _⟩ => ⟨S50000, .i32⟩
  | .hbm, ⟨23, _⟩ => ⟨S_, .i32⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S_, .i32⟩
  | .hbm, ⟨36, _⟩ => ⟨S800000, .i32⟩
  | .hbm, ⟨37, _⟩ => ⟨S50000, .i32⟩
  | .hbm, ⟨38, _⟩ => ⟨S50000, .f32⟩
  | .hbm, ⟨39, _⟩ => ⟨S128x128, .f32⟩
  | .hbm, ⟨40, _⟩ => ⟨S1x128, .f32⟩
  | .hbm, ⟨41, _⟩ => ⟨S50000x1, .f32⟩
  | .hbm, ⟨42, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_c_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  transposes_S128x128_S128x128_1_0 : S128x128.Transposes [1, 0] S128x128
  shapeCasts_S128_S1x128 : S128.ShapeCasts S1x128
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 47
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S_, .i32⟩
  | .hbm, ⟨22, _⟩ => ⟨S50000, .i32⟩
  | .hbm, ⟨23, _⟩ => ⟨S_, .i32⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S_, .i32⟩
  | .hbm, ⟨36, _⟩ => ⟨S800000, .i32⟩
  | .hbm, ⟨37, _⟩ => ⟨S50000, .i32⟩
  | .hbm, ⟨38, _⟩ => ⟨S50000, .f32⟩
  | .hbm, ⟨39, _⟩ => ⟨S50000x1, .f32⟩
  | .hbm, ⟨40, _⟩ => ⟨S50000x128, .f32⟩
  | .hbm, ⟨41, _⟩ => ⟨S50000x128, .f32⟩
  | .hbm, ⟨42, _⟩ => ⟨S128x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_c_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  Mean aggregation followed by a linear layer, entry by entry on the extended reals.

  Given the summed neighbour features `agg` (one row of 128 features per node), the in-degree `deg` of each node, a
  weight matrix `W` (output feature × input feature) and a bias `b`, the result at node `i`, output feature `j` is

      out[i, j] = (Σ_k (agg[i, k] / deg[i]) · W[j, k]) + b[j].

  Both programs compute exactly this arrangement — divide first, then contract over the input feature `k`, then add
  the bias — so no law of the extended reals beyond reading each operation at an index is needed, and the quotient
  by a zero degree is the same `Ideal.div` on both sides.
-/
import Idealize.ShloMosaic.PureOps.Ideal
import Idealize.ShloMosaic.PureOps.Ideal.Laws
import Idealize.ShloMosaic.Lib.ValueIdx

noncomputable section

namespace Cert.MeanLinear

open Idealize.ShloMosaic Idealize.ShloMosaic.ValueIdx

/-- `out[i, j] = (Σ_k (agg[i, k] / deg[i]) · W[j, k]) + b[j]` over 50000 nodes and 128 features. -/
def meanLinear (agg : FVec Ideal ⟨2, ![50000, 128]⟩ .f32) (deg : FVec Ideal ⟨1, ![50000]⟩ .f32)
    (W : FVec Ideal ⟨2, ![128, 128]⟩ .f32) (b : FVec Ideal ⟨1, ![128]⟩ .f32) : FVec Ideal ⟨2, ![50000, 128]⟩ .f32 :=
  fun i => (∑ k : Fin 128, Ideal.div (agg (ix2 (i 0) k)) (deg (ix1 (i 0))) * W (ix2 (i 1) k)) + b (ix1 (i 1))

theorem meanLinear_apply (agg : FVec Ideal ⟨2, ![50000, 128]⟩ .f32) (deg : FVec Ideal ⟨1, ![50000]⟩ .f32)
    (W : FVec Ideal ⟨2, ![128, 128]⟩ .f32) (b : FVec Ideal ⟨1, ![128]⟩ .f32) (r : Fin 50000) (j : Fin 128) :
    meanLinear agg deg W b (ix2 r j)
      = (∑ k : Fin 128, Ideal.div (agg (ix2 r k)) (deg (ix1 r)) * W (ix2 j k)) + b (ix1 j) := rfl

end Cert.MeanLinear

end
-- ==== Proof.RefValue.lean ====
/-
  The reference's result, read one operation at a time, is `meanLinear` of its own intermediate arrays: the
  scatter-added neighbour features (`%13`) and the in-degrees as floats (`%24`).

  Reading backwards from the last operation: the final add reads the bias through two broadcasts at column `j`; the
  `dot_general` contracts axis 1 of the quotient with axis 0 of the transposed weights, so its `k`-th term is the
  quotient at `(i, k)` times `W` at `(j, k)`; the quotient's divisor is the degree broadcast twice, read at row `i`.
-/
import proofs.«175362_j54176717472164_1_alg».proof.Proof.Gen.ReferenceIdeal.Read
import proofs.«175362_j54176717472164_1_alg».proof.Proof.Spec

noncomputable section

namespace Cert.ReferenceIdeal.RefValue

open Cert.ReferenceIdeal Cert.ReferenceIdeal.Read Cert.MeanLinear
open Idealize.ShloMosaic Idealize.ShloMosaic.ValueIdx

/-- The reference's last stage is `meanLinear` of its scatter-added features, its float degrees, and the arguments
    `W` and `b`. -/
theorem result_eq (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal)) :
    val_main_v32 (F := Ideal) x0 x1 x2 x3
      = meanLinear (val_main_v13 (F := Ideal) x0 x1) (val_main_v24 (F := Ideal) x1) x2 x3 := by
  funext i
  -- the contraction's left operand index is (i, k); its divisor's row is i
  have eL : ∀ k : Fin 128, lidx_main_v29 i k = ix2 (i 0) k := fun k =>
    funext fun a => Fin.ext (by match a with | ⟨0, _⟩ => rfl | ⟨1, _⟩ => rfl)
  have eD : ∀ k : Fin 128, idx_main_v25 (idx_main_v26 (ix2 (i 0) k)) = ix1 (i 0) := fun k =>
    funext fun a => Fin.ext (by match a with | ⟨0, _⟩ => rfl)
  -- the right operand is the transpose read at (k, j), that is W at (j, k)
  have eR : ∀ k : Fin 128, idx_main_v28 (ridx_main_v29 i k) = ix2 (i 1) k := fun k =>
    funext fun a => Fin.ext (by match a with | ⟨0, _⟩ => rfl | ⟨1, _⟩ => rfl)
  -- the bias is read at column j
  have eB : idx_main_v30 (idx_main_v31 i) = ix1 (i 1) :=
    funext fun a => Fin.ext (by match a with | ⟨0, _⟩ => rfl)
  rw [val_main_v32_apply, val_main_v29_apply, val_main_v31_apply, val_main_v30_apply, eB]
  simp only [val_main_v28_apply, eL, eR]
  unfold meanLinear
  refine congrArg₂ (· + ·) (Finset.sum_congr rfl fun k _ => ?_) rfl
  refine congrArg (· * x2 (ix2 (i 1) k)) ?_
  -- the quotient stage at (i, k): the features there over the degree of row i
  refine (val_main_v27_apply (F := Ideal) x0 x1 (ix2 (i 0) k)).trans ?_
  rw [Ideal.hostDivf_def, val_main_v26_apply, val_main_v25_apply, eD k]
  rfl

end Cert.ReferenceIdeal.RefValue

end
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelBlock.lean ====
/-
  The kernel body's one stored value, read at an entry of its 5000 × 128 block.

  The body divides the block of summed features by the block's degree column broadcast along the lanes, contracts
  the quotient over the input feature with the (already transposed) weights into a zero accumulator, and adds the
  bias row broadcast down the rows. The changes of float format in between are the identity on the extended reals.
  So entry `(p, q)` of the stored value is

      (Σ_k (a[p, k] / d[p, 0]) · w[k, q]) + β[0, q].
-/
import proofs.«175362_j54176717472164_1_alg».proof.Proof.Gen.KernelIdeal.Skeleton
import proofs.«175362_j54176717472164_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen
open Idealize.ShloMosaic Idealize.ShloMosaic.ValueIdx

/-- The matrix product's dimension record: rows × contraction times contraction × columns. -/
abbrev D := dot_S5000x128_S128x128_S5000x128_1_0_0_1_n_n

/-- Axis 0 of the left operand's index is the output's row. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- Axis 1 of the left operand's index is the contraction index. -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Axis 0 of the right operand's index is the contraction index. -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Axis 1 of the right operand's index is the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A product into the zero accumulator, at entry `(p, q)`: the sum over `k` of left `(p, k)` times right `(k, q)`. -/
theorem matmul_zero_apply (l : FVec Ideal S5000x128 .bf16) (r : FVec Ideal S128x128 .bf16) (p : Fin 5000) (q : Fin 128) :
    matmul (F := Ideal) dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q)
      ((ValueIdx.contrEquiv1 dot_S5000x128_S128x128_S5000x128_1_0_0_1_n_n 128 rfl rfl).symm k) = ix2 p k :=
    funext fun a => Fin.ext (by
      match a with
      | ⟨0, _⟩ => exact lhs_0 _ _
      | ⟨1, _⟩ => exact (lhs_1 _ _).trans hk)
  have er : dot_S5000x128_S128x128_S5000x128_1_0_0_1_n_n.rhsIdx (ix2 p q)
      ((ValueIdx.contrEquiv1 dot_S5000x128_S128x128_S5000x128_1_0_0_1_n_n 128 rfl rfl).symm k) = ix2 k q :=
    funext fun a => Fin.ext (by
      match a with
      | ⟨0, _⟩ => exact (rhs_0 _ _).trans hk
      | ⟨1, _⟩ => exact rhs_1 _ _)
  rw [el, er]

/-- The stored value at entry `(p, q)` of the block, from the four loaded blocks. -/
theorem pay_apply (a : Vec Ideal S5000x128 .f32) (d : Vec Ideal S5000x1 .f32) (w : Vec Ideal S128x128 .f32)
    (β : Vec Ideal S1x128 .f32) (p : Fin 5000) (q : Fin 128) :
    k0_pay1 (F := Ideal) a d w β (ix2 p q)
      = (∑ k : Fin 128, Ideal.div (a (ix2 p k)) (d (ix2 p (0 : Fin 1))) * w (ix2 k q)) + β (ix2 (0 : Fin 1) q) := by
  unfold k0_pay1
  rw [addf_apply, matmul_zero_apply, ValueIdx.broadcastTo_1b_ab_apply]
  simp only [shapeCast_self, truncf_apply, divf_apply, Cert.LibKeepdims.broadcastTo_a1_ab_apply]

end Cert.KernelIdeal.Block

end
-- ==== Proof.KernelValue.lean ====
/-
  From blocks to the array: what the kernel's result array holds after the run, as one function of the four arrays
  the region reads.

  The grid has ten points. At point `t` the summed features and the degree column are read through rows
  `5000·t … 5000·t + 4999`, the transposed weights and the bias row whole, and the output block written back to the
  same rows. So entry `(p, q)` of the block at point `t` is entry `(5000·t + p, q)` of

      R[i, j] = (Σ_k (A[i, k] / d[i, 0]) · Wt[k, j]) + β[0, j],

  where `A`, `d`, `Wt`, `β` are the region's four input arrays. The ten blocks tile the 50000 rows (row `r` lies in
  the block of point `r / 5000`), so the array ends holding `R`.
-/
import proofs.«175362_j54176717472164_1_alg».proof.Proof.Gen.KernelIdeal.Value
import proofs.«175362_j54176717472164_1_alg».proof.Proof.KernelBlock
import Idealize.ShloMosaic.Lib.Pipeline.Value
import Idealize.ShloMosaic.Lib.ValueIdx

noncomputable section

namespace Cert.KernelIdeal.Hand

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The printed index maps over the ten points: the row-tiled windows sit at block row `t`, the whole-array
    windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The region's four input arrays, as it finds them: the summed features, the degree column, the transposed
    weights, the bias row. -/
abbrev aggV (c : Dev nD) : FVec Ideal S50000x128 .f32 := V m c main_v13
abbrev degV (c : Dev nD) : FVec Ideal S50000x1 .f32 := V m c main_v27
abbrev wtV (c : Dev nD) : FVec Ideal S128x128 .f32 := V m c main_v25
abbrev biasV (c : Dev nD) : FVec Ideal S1x128 .f32 := V m c main_v26

/-- The result array as one function of those four. -/
def outV (c : Dev nD) : FVec Ideal S50000x128 .f32 := fun i =>
  (∑ k : Fin 128, Ideal.div (aggV m c (ix2 (i 0) k)) (degV m c (ix2 (i 0) (0 : Fin 1))) * wtV m c (ix2 k (i 1)))
    + biasV m c (ix2 (0 : Fin 1) (i 1))

/-- Any array read through the features' window at point `t`: entry `x` of the block is entry
    `(5000·t + x₀, x₁)` of the array. -/
theorem blk0_read (A : S50000x128.Idx → EReal) (t : Fin cfg0.N) (x : S5000x128.Idx) (k : S50000x128.Idx)
    (hk0 : (k 0).val = t.val * 5000 + (x 0).val) (hk1 : (k 1).val = (x 1).val) :
    (((cfg0.win 0).blk t).view.read (Elt Ideal) A : Vec Ideal S5000x128 .f32) x = A k := by
  obtain ⟨e0, e1, -⟩ := idx_facts t
  rewrite [View.read_apply]
  refine congrArg A ?_
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- Any column read through the degree window at point `t`: entry `x` of the block is entry `(5000·t + x₀, x₁)`. -/
theorem blk1_read (A : S50000x1.Idx → EReal) (t : Fin cfg0.N) (x : S5000x1.Idx) (k : S50000x1.Idx)
    (hk0 : (k 0).val = t.val * 5000 + (x 0).val) (hk1 : (k 1).val = (x 1).val) :
    (((cfg0.win 1).blk t).view.read (Elt Ideal) A : Vec Ideal S5000x1 .f32) x = A k := by
  obtain ⟨-, -, e0, e1, -⟩ := idx_facts t
  rewrite [View.read_apply]
  refine congrArg A ?_
  funext a
  apply Fin.ext
  match a with
  | ⟨0, _⟩ => show win0_1.index t 0 * 5000 + 1 * (x 0).val = (k 0).val; rw [e0, hk0]; omega
  | ⟨1, _⟩ => show win0_1.index t 1 * 1 + 1 * (x 1).val = (k 1).val; rw [e1, hk1]; omega

/-- The weights' window reads the whole array at every point. -/
theorem blk2_read (A : S128x128.Idx → EReal) (t : Fin cfg0.N) (x : S128x128.Idx) (k : S128x128.Idx)
    (hk0 : (k 0).val = (x 0).val) (hk1 : (k 1).val = (x 1).val) :
    (((cfg0.win 2).blk t).view.read (Elt Ideal) A : Vec Ideal S128x128 .f32) x = A k := by
  obtain ⟨-, -, -, -, e0, e1, -⟩ := idx_facts t
  rewrite [View.read_apply]
  refine congrArg A ?_
  funext a
  apply Fin.ext
  match a with
  | ⟨0, _⟩ => show win0_2.index t 0 * 128 + 1 * (x 0).val = (k 0).val; rw [e0, hk0]; omega
  | ⟨1, _⟩ => show win0_2.index t 1 * 128 + 1 * (x 1).val = (k 1).val; rw [e1, hk1]; omega

/-- The bias window reads the whole row at every point. -/
theorem blk3_read (A : S1x128.Idx → EReal) (t : Fin cfg0.N) (x : S1x128.Idx) (k : S1x128.Idx)
    (hk0 : (k 0).val = (x 0).val) (hk1 : (k 1).val = (x 1).val) :
    (((cfg0.win 3).blk t).view.read (Elt Ideal) A : Vec Ideal S1x128 .f32) x = A k := by
  obtain ⟨-, -, -, -, -, -, e0, e1, -⟩ := idx_facts t
  rewrite [View.read_apply]
  refine congrArg A ?_
  funext a
  apply Fin.ext
  match a with
  | ⟨0, _⟩ => show win0_3.index t 0 * 1 + 1 * (x 0).val = (k 0).val; rw [e0, hk0]; omega
  | ⟨1, _⟩ => show win0_3.index t 1 * 128 + 1 * (x 1).val = (k 1).val; rw [e1, hk1]; omega

/-- The features' block at point `t` is rows `5000·t …` of the summed features. -/
theorem iblk0_apply (c : Dev nD) (t : Fin cfg0.N) (x : S5000x128.Idx) (k : S50000x128.Idx)
    (hk0 : (k 0).val = t.val * 5000 + (x 0).val) (hk1 : (k 1).val = (x 1).val) :
    (iblk m c 0 t : Vec Ideal S5000x128 .f32) x = aggV m c k :=
  blk0_read (aggV m c) t x k hk0 hk1

/-- The degree column's block at point `t` is rows `5000·t …` of the column. -/
theorem iblk1_apply (c : Dev nD) (t : Fin cfg0.N) (x : S5000x1.Idx) (k : S50000x1.Idx)
    (hk0 : (k 0).val = t.val * 5000 + (x 0).val) (hk1 : (k 1).val = (x 1).val) :
    (iblk m c 1 t : Vec Ideal S5000x1 .f32) x = degV m c k :=
  blk1_read (degV m c) t x k hk0 hk1

/-- The weights' block at every point is the whole transposed array. -/
theorem iblk2_apply (c : Dev nD) (t : Fin cfg0.N) (x : S128x128.Idx) (k : S128x128.Idx)
    (hk0 : (k 0).val = (x 0).val) (hk1 : (k 1).val = (x 1).val) :
    (iblk m c 2 t : Vec Ideal S128x128 .f32) x = wtV m c k :=
  blk2_read (wtV m c) t x k hk0 hk1

/-- The bias row's block at every point is the whole row. -/
theorem iblk3_apply (c : Dev nD) (t : Fin cfg0.N) (x : S1x128.Idx) (k : S1x128.Idx)
    (hk0 : (k 0).val = (x 0).val) (hk1 : (k 1).val = (x 1).val) :
    (iblk m c 3 t : Vec Ideal S1x128 .f32) x = biasV m c k :=
  blk3_read (biasV m c) t x k hk0 hk1

/-- Entry `j` of what the body stores at point `t` is entry `(5000·t + j₀, j₁)` of `outV`. -/
theorem stored_apply (c : Dev nD) (t : Fin cfg0.N) (j : S5000x128.Idx) (i : S50000x128.Idx)
    (hi0 : (i 0).val = t.val * 5000 + (j 0).val) (hi1 : (i 1).val = (j 1).val) :
    k0_pay1 (F := Ideal) (iblk m c 0 t) (iblk m c 1 t) (iblk m c 2 t) (iblk m c 3 t) j = outV m c i := by
  obtain ⟨p, q, rfl⟩ : ∃ (p : Fin 5000) (q : Fin 128), j = ix2 p q := ⟨j 0, j 1, eq_ix2 j⟩
  rw [Block.pay_apply]
  unfold outV
  rw [iblk1_apply m c t (ix2 p (0 : Fin 1)) (ix2 (i 0) (0 : Fin 1)) hi0 rfl,
    iblk3_apply m c t (ix2 (0 : Fin 1) q) (ix2 (0 : Fin 1) (i 1)) rfl hi1]
  refine congrArg₂ (· + ·) (Finset.sum_congr rfl fun k _ => ?_) rfl
  rw [iblk0_apply m c t (ix2 p k) (ix2 (i 0) k) hi0 rfl, iblk2_apply m c t (ix2 k q) (ix2 k (i 1)) rfl hi1]

/-- What point `t` writes back is block `t` of `outV`. -/
theorem flushed_eq (c : Dev nD) (t : Fin cfg0.N) :
    (dats m 0 c).flushed 4 t = ((cfg0.win 4).blk t).view.read (Elt Ideal) (outV m c) := by
  obtain ⟨-, -, -, -, -, -, -, -, e0, e1⟩ := idx_facts t
  rw [Value.flushed4]
  unfold out0_4
  rw [View.canon_unit_zero zeros]
  simp only [View.ld_unit_zero (S := S5000x128) zeros, View.ld_unit_zero (S := S5000x1) zeros,
    View.ld_unit_zero (S := S128x128) zeros, View.ld_unit_zero (S := S1x128) zeros]
  funext j
  show k0_pay1 (F := Ideal) (iblk m c 0 t) (iblk m c 1 t) (iblk m c 2 t) (iblk m c 3 t) j
    = outV m c (((cfg0.win 4).blk t).view.emb j)
  refine stored_apply m c t j _ ?_ ?_
  · show win0_4.index t 0 * 5000 + 1 * (j 0).val = t.val * 5000 + (j 0).val; rw [e0]; omega
  · show win0_4.index t 1 * 128 + 1 * (j 1).val = (j 1).val; rw [e1]; omega

/-- Every entry of the array lies in some point's block: row `r` in that of point `r / 5000`. -/
theorem cover (i : S50000x128.Idx) :
    ∃ t : Fin cfg0.N, (cfg0.win 4).flush t = true ∧ i ∈ ((cfg0.win 4).blk t).view.set := by
  have hN : cfg0.N = 10 := N_0
  have hi0 : (i 0).val < 50000 := (i 0).isLt
  have hi1 : (i 1).val < 128 := (i 1).isLt
  have ht : (i 0).val / 5000 < cfg0.N := by rw [hN]; omega
  obtain ⟨-, -, -, -, -, -, -, -, e0, e1⟩ := idx_facts ⟨(i 0).val / 5000, ht⟩
  refine ⟨⟨(i 0).val / 5000, ht⟩, flush0_4 _, ?_⟩
  show i ∈ ((View.whole main_v28).slice (win0_4.rect ⟨(i 0).val / 5000, ht⟩)).set
  rw [View.set_slice_whole, Rect.mem_set_unit]
  intro a
  match a with
  | ⟨0, _⟩ =>
    show win0_4.index ⟨(i 0).val / 5000, ht⟩ 0 * 5000 ≤ (i 0).val
      ∧ (i 0).val < win0_4.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ 1 * 128 ≤ (i 1).val
      ∧ (i 1).val < win0_4.index ⟨(i 0).val / 5000, ht⟩ 1 * 128 + 128
    rw [e1]; omega

/-- The result array after the run is `outV`. -/
theorem final (c : Dev nD) : (dats m 0 c).arrAt 4 cfg0.N = outV m c :=
  (dats m 0 c).arrAt_eq_of_cover 4 (outV m c) (fun t _ => flushed_eq m c t) cover

end Cert.KernelIdeal.Hand

end
-- ==== Proof.KernelHost.lean ====
/-
  The region's four input arrays as terms of the program's arguments.

  Before the region the program gathers the source rows of `x`, scatter-adds them into the destination rows (the
  summed features), counts each destination's edges and converts the counts to floats (the degrees), and then only
  re-lays things: the degrees as a column, the weights transposed, the bias as a row. The gather, the two scatters
  and the index arithmetic in front of them are operation for operation the reference's, so the summed features and
  the degrees are the very terms the reference's own stages `%13` and `%24` name; nothing here opens them.
-/
import proofs.«175362_j54176717472164_1_alg».proof.Proof.Gen.KernelIdeal.Frame
import proofs.«175362_j54176717472164_1_alg».proof.Proof.Gen.ReferenceIdeal.Read
import proofs.«175362_j54176717472164_1_alg».proof.Proof.LibKeepdims
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Host

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ)

/-- The weights as the region finds them: the argument transposed. -/
theorem wt_eq (c : Dev nD) :
    (V m c main_v25 : S128x128.Idx → EReal)
      = transpose S128x128 [1, 0] (m ((c : Thread nD τ).loc main_arg2)) transposes_S128x128_S128x128_1_0 := by
  dsimp only [Gen.V]
  simp only [hostOps0, hostOps0_1, hostOps0_2, List.flatten_cons, List.flatten_nil, List.append_nil, List.cons_append,
    List.nil_append]
  after_results_simp

/-- The bias as the region finds it: the argument as one row. -/
theorem bias_eq (c : Dev nD) :
    (V m c main_v26 : S1x128.Idx → EReal)
      = shapeCast S1x128 (m ((c : Thread nD τ).loc main_arg3)) shapeCasts_S128_S1x128 := by
  dsimp only [Gen.V]
  simp only [hostOps0, hostOps0_1, hostOps0_2, List.flatten_cons, List.flatten_nil, List.append_nil, List.cons_append,
    List.nil_append]
  after_results_simp
  rfl

/-- The degrees as the region finds them: the reference's float degrees, as a column. -/
theorem deg_eq (c : Dev nD) :
    (V m c main_v27 : S50000x1.Idx → EReal)
      = shapeCast S50000x1 (Cert.ReferenceIdeal.Read.val_main_v24 (F := Ideal) (m ((c : Thread nD τ).loc main_arg1)))
          shapeCasts_S50000_S50000x1 := by
  dsimp only [Gen.V]
  simp only [hostOps0, hostOps0_1, hostOps0_2, List.flatten_cons, List.flatten_nil, List.append_nil, List.cons_append,
    List.nil_append]
  after_results_simp
  rfl

/-- The summed features as the region finds them: the reference's scatter-added features. -/
theorem agg_eq (c : Dev nD) :
    (V m c main_v13 : S50000x128.Idx → EReal)
      = Cert.ReferenceIdeal.Read.val_main_v13 (F := Ideal) (m ((c : Thread nD τ).loc main_arg0))
          (m ((c : Thread nD τ).loc main_arg1)) := by
  dsimp only [Gen.V]
  simp only [hostOps0, hostOps0_1, hostOps0_2, List.flatten_cons, List.flatten_nil, List.append_nil, List.cons_append,
    List.nil_append]
  after_results_simp
  rfl

/-- The transposed weights at `(k, j)` are the argument at `(j, k)`. -/
theorem wt_apply (c : Dev nD) (k j : Fin 128) :
    (V m c main_v25 : S128x128.Idx → EReal) (ix2 k j)
      = (m ((c : Thread nD τ).loc main_arg2) : S128x128.Idx → EReal) (ix2 j k) := by
  rw [wt_eq]
  exact transpose_ix2_apply _ _ k j

/-- The bias row at `(0, j)` is the argument at `j`. -/
theorem bias_apply (c : Dev nD) (j : Fin 128) :
    (V m c main_v26 : S1x128.Idx → EReal) (ix2 (0 : Fin 1) j)
      = (m ((c : Thread nD τ).loc main_arg3) : S128.Idx → EReal) (ix1 j) := by
  rw [bias_eq]
  exact shapeCast_a_1a_apply _ _ (0 : Fin 1) j

/-- The degree column at `(r, 0)` is the reference's float degree of node `r`. -/
theorem deg_apply (c : Dev nD) (r : Fin 50000) :
    (V m c main_v27 : S50000x1.Idx → EReal) (ix2 r (0 : Fin 1))
      = Cert.ReferenceIdeal.Read.val_main_v24 (F := Ideal) (m ((c : Thread nD τ).loc main_arg1)) (ix1 r) := by
  rw [deg_eq]
  exact Cert.LibKeepdims.shapeCast_a_a1_apply _ _ r (0 : Fin 1)

end Cert.KernelIdeal.Host

end
-- ==== Proof.KernelResult.lean ====
/-
  The kernel's result array after the run is `meanLinear` of the reference's own summed features and float degrees
  and of the arguments `W` and `b`.

  The array holds `R[i, j] = (Σ_k (A[i, k] / d[i, 0]) · Wt[k, j]) + β[0, j]` over the region's inputs (the blocks
  tile it); `A` is the summed features, `d[i, 0]` the degree of node `i`, `Wt[k, j] = W[j, k]` and `β[0, j] = b[j]`.
-/
import proofs.«175362_j54176717472164_1_alg».proof.Proof.Spec
import proofs.«175362_j54176717472164_1_alg».proof.Proof.KernelValue
import proofs.«175362_j54176717472164_1_alg».proof.Proof.KernelHost

noncomputable section

namespace Cert.KernelIdeal.Hand

open Cert.KernelIdeal Cert.KernelIdeal.Gen Cert.KernelIdeal.Value Cert.MeanLinear
open Idealize.ShloMosaic Idealize.ShloMosaic.TcCoe Idealize.SL.Sem Idealize.ShloMosaic.ValueIdx

variable (m : (ℓ : Loc nD τ sig) → Buf (Elt Ideal) ℓ) (ρ : Dev nD → PrngReg)

/-- The kernel's result as a function of the arguments: mean aggregation, then the linear layer. -/
abbrev result (c : Dev nD) : FVec Ideal S50000x128 .f32 :=
  meanLinear
    (Cert.ReferenceIdeal.Read.val_main_v13 (F := Ideal) (m ((c : Thread nD τ).loc main_arg0)) (m ((c : Thread nD τ).loc main_arg1)))
    (Cert.ReferenceIdeal.Read.val_main_v24 (F := Ideal) (m ((c : Thread nD τ).loc main_arg1)))
    (m ((c : Thread nD τ).loc main_arg2)) (m ((c : Thread nD τ).loc main_arg3))

/-- The function of the region's inputs is that function of the arguments, entry by entry. -/
theorem outV_eq (c : Dev nD) : outV m c = result m c := by
  funext i
  obtain ⟨r, j, rfl⟩ : ∃ (r : Fin 50000) (j : Fin 128), i = ix2 r j := ⟨i 0, i 1, eq_ix2 i⟩
  show outV m c (ix2 r j) = meanLinear _ _ _ _ (ix2 r j)
  rewrite [meanLinear_apply]
  unfold outV
  show (∑ k : Fin 128, Ideal.div ((V m c main_v13 : S50000x128.Idx → EReal) (ix2 r k))
      ((V m c main_v27 : S50000x1.Idx → EReal) (ix2 r (0 : Fin 1))) * (V m c main_v25 : S128x128.Idx → EReal) (ix2 k j))
    + (V m c main_v26 : S1x128.Idx → EReal) (ix2 (0 : Fin 1) j) = _
  rewrite [Host.deg_apply m c r, Host.bias_apply m c j, Host.agg_eq m c]
  refine congrArg₂ (· + ·) (Finset.sum_congr rfl fun k _ => ?_) rfl
  rewrite [Host.wt_apply m c k j]
  rfl

/-- The run, read: the result array at `result`, the arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (outV_eq m c)), (h c).2⟩)
    (Value.run_blocks m ρ)

end Cert.KernelIdeal.Hand

end
-- ==== Proof.lean ====
/-
  A graph-convolution layer with mean aggregation: every node sums the feature rows of its incoming edges' sources,
  divides the sum by its number of incoming edges, applies a linear layer (the weights transposed) and adds a bias.

  Both programs gather and scatter-add the same way on the host, operation for operation, so the summed features
  `agg` and the degrees `deg` are one and the same term of the arguments on both sides. The kernel then computes, ten
  row blocks of 5000 nodes at a time, `(agg / deg) · Wᵀ + b` with its matrix product fed through a narrower float
  format, which is the identity on the extended reals; the reference computes the same quotient, contraction and sum on
  whole arrays. Entry by entry both results are

      out[i, j] = (Σ_k (agg[i, k] / deg[i]) · W[j, k]) + b[j]

  (`Cert.MeanLinear.meanLinear`), with the same division where a degree is zero. No law of the extended reals is used
  that would need the inputs finite.

  The three frames: the kernel's two are the generated frame certificates; the reference has no kernel, and its frame
  is its generated run with the result dropped. The idealization rewrote nothing, so `preserves` is trivial.
-/
import proofs.«175362_j54176717472164_1_alg».proof.Defs
import proofs.«175362_j54176717472164_1_alg».proof.Proof.Gen.Kernel
import proofs.«175362_j54176717472164_1_alg».proof.Proof.Gen.Kernel.Skeleton
import proofs.«175362_j54176717472164_1_alg».proof.Proof.Gen.Kernel.Launch
import proofs.«175362_j54176717472164_1_alg».proof.Proof.Gen.Kernel.Points
import proofs.«175362_j54176717472164_1_alg».proof.Proof.Gen.Kernel.Frame
import proofs.«175362_j54176717472164_1_alg».proof.Proof.Gen.KernelIdeal
import proofs.«175362_j54176717472164_1_alg».proof.Proof.Gen.KernelIdeal.Skeleton
import proofs.«175362_j54176717472164_1_alg».proof.Proof.Gen.KernelIdeal.Launch
import proofs.«175362_j54176717472164_1_alg».proof.Proof.Gen.KernelIdeal.Points
import proofs.«175362_j54176717472164_1_alg».proof.Proof.Gen.KernelIdeal.Frame
import proofs.«175362_j54176717472164_1_alg».proof.Proof.Gen.ReferenceIdeal
import proofs.«175362_j54176717472164_1_alg».proof.Proof.Gen.Pre_finite_inputs
import proofs.«175362_j54176717472164_1_alg».proof.Proof.Gen.KernelIdeal.Value
import proofs.«175362_j54176717472164_1_alg».proof.Proof.Gen.ReferenceIdeal.Run
import proofs.«175362_j54176717472164_1_alg».proof.Proof.Gen.ReferenceIdeal.Read
import proofs.«175362_j54176717472164_1_alg».proof.Proof.RefValue
import proofs.«175362_j54176717472164_1_alg».proof.Proof.KernelResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with `meanLinear` of the same summed features, the
    same degrees, `W` and `b`: the kernel by its blocks tiling the array, the reference stage by stage. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
